-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024x512x1 : Shape := ⟨3, ![1024, 512, 1]⟩
abbrev S1x1x32000 : Shape := ⟨3, ![1, 1, 32000]⟩
abbrev S_ : Shape := ⟨0, ![]⟩

class Facts : Prop where
  bcast_S_S1024x512x1 : S_.BroadcastsInDim S1024x512x1 (![] : Fin 0 → Fin S1024x512x1.rank)
  reducesTo_S1024x512x1_S_d0_1_2 : S1024x512x1.ReducesTo [0, 1, 2] S_
  h_S_ : 0 < S_.numel
  bcast_S_S1x1x32000 : S_.BroadcastsInDim S1x1x32000 (![] : Fin 0 → Fin S1x1x32000.rank)
  reducesTo_S1x1x32000_S_d0_1_2 : S1x1x32000.ReducesTo [0, 1, 2] S_

variable [Facts]

def fn {F : FTy → Type} [FloatOps F] (main_arg0 : IVec S1024x512 32) (main_arg1 : FVec F S1024x512x1 .f32) (main_arg2 : FVec F S1x1x32000 .f32) (main_arg3 : FVec F S1x1x32000 .f32) : IVec S_ 1 :=
  let main_v0 : FVec F S1024x512x1 .f32 := Host.absf main_arg1
  let main_cst : FVec F S_ .f32 := constant S_ .f32 0x7F800000#32
  let main_v1 : FVec F S1024x512x1 .f32 := broadcastInDim S1024x512x1 ![] bcast_S_S1024x512x1 main_cst
  let main_v2 : IVec S1024x512x1 1 := cmpf .olt main_v0 main_v1
  let main_c : IVec S_ 1 := constantI S_ 1 1#1
  let main_v3 : IVec S_ 1 := (fun x v => Host.reduce IntOp.andi x v reducesTo_S1024x512x1_S_d0_1_2 h_S_) main_v2 main_c
  let main_v4 : FVec F S1x1x32000 .f32 := Host.absf main_arg2
  let main_cst_0 : FVec F S_ .f32 := constant S_ .f32 0x7F800000#32
  let main_v5 : FVec F S1x1x32000 .f32 := broadcastInDim S1x1x32000 ![] bcast_S_S1x1x32000 main_cst_0
  let main_v6 : IVec S1x1x32000 1 := cmpf .olt main_v4 main_v5
  let main_c_1 : IVec S_ 1 := constantI S_ 1 1#1
  let main_v7 : IVec S_ 1 := (fun x v => Host.reduce IntOp.andi x v reducesTo_S1x1x32000_S_d0_1_2 h_S_) main_v6 main_c_1
  let main_v8 : IVec S_ 1 := andi main_v3 main_v7
  let main_v9 : FVec F S1x1x32000 .f32 := Host.absf main_arg3
  let main_cst_2 : FVec F S_ .f32 := constant S_ .f32 0x7F800000#32
  let main_v10 : FVec F S1x1x32000 .f32 := broadcastInDim S1x1x32000 ![] bcast_S_S1x1x32000 main_cst_2
  let main_v11 : IVec S1x1x32000 1 := cmpf .olt main_v9 main_v10
  let main_c_3 : IVec S_ 1 := constantI S_ 1 1#1
  let main_v12 : IVec S_ 1 := (fun x v => Host.reduce IntOp.andi x v reducesTo_S1x1x32000_S_d0_1_2 h_S_) main_v11 main_c_3
  let main_v13 : IVec S_ 1 := andi main_v8 main_v12
  main_v13
-- ==== Kernel.lean ====
abbrev S1024x512 : Shape := ⟨2, ![1024, 512]⟩
abbrev S1024x512x1 : Shape := ⟨3, ![1024, 512, 1]⟩
abbrev S1x1x32000 : Shape := ⟨3, ![1, 1, 32000]⟩
abbrev S1x32000 : Shape := ⟨2, ![1, 32000]⟩
abbrev S1024 : Shape := ⟨1, ![1024]⟩
abbrev S1024x1 : Shape := ⟨2, ![1024, 1]⟩
abbrev S_ : Shape := ⟨0, ![]⟩
abbrev S1024x32000 : Shape := ⟨2, ![1024, 32000]⟩
abbrev S1024x512x2 : Shape := ⟨3, ![1024, 512, 2]⟩
abbrev S256x1280 : Shape := ⟨2, ![256, 1280]⟩
abbrev S1x1280 : Shape := ⟨2, ![1, 1280]⟩
abbrev S1024x1x32000 : Shape := ⟨3, ![1024, 1, 32000]⟩

abbrev nBuf : Space → Nat
  | .hbm => 32
  | .vmem => 8
  | .smem => 0
  | _ => 0

abbrev bufTy : (tb : Table) → Fin (tcTables nBuf tb) → BufTy
  | .hbm, ⟨0, _⟩ => ⟨S1024x512, .i32⟩
  | .hbm, ⟨1, _⟩ => ⟨S1024x512x1, .f32⟩
  | .hbm, ⟨2, _⟩ => ⟨S1x1x32000, .f32⟩
  | .hbm, ⟨3, _⟩ => ⟨S1x1x32000, .f32⟩
  | .hbm, ⟨4, _⟩ => ⟨S1024x512, .f32⟩
  | .hbm, ⟨5, _⟩ => ⟨S1x32000, .f32⟩
  | .hbm, ⟨6, _⟩ => ⟨S1x32000, .f32⟩
  | .hbm, ⟨7, _⟩ => ⟨S1024, .i32⟩
  | .hbm, ⟨8, _⟩ => ⟨S1024x1, .i32⟩
  | .hbm, ⟨9, _⟩ => ⟨S_, .f32⟩
  | .hbm, ⟨10, _⟩ => ⟨S1024x32000, .f32⟩
  | .hbm, ⟨11, _⟩ => ⟨S_, .i32⟩
  | .hbm, ⟨12, _⟩ => ⟨S1024x1, .i32⟩
  | .hbm, ⟨13, _⟩ => ⟨S1024x1, .i1⟩
  | .hbm, ⟨14, _⟩ => ⟨S_, .i32⟩
  | .hbm, ⟨15, _⟩ => ⟨S1024x1, .i32⟩
  | .hbm, ⟨16, _⟩ => ⟨S1024x1, .i32⟩
  | .hbm, ⟨17, _⟩ => ⟨S1024x1, .i32⟩
  | .hbm, ⟨18, _⟩ => ⟨S_, .i32⟩
  | .hbm, ⟨19, _⟩ => ⟨S1024x512, .i32⟩
  | .hbm, ⟨20, _⟩ => ⟨S1024x512, .i1⟩
  | .hbm, ⟨21, _⟩ => ⟨S_, .i32⟩
  | .hbm, ⟨22, _⟩ => ⟨S1024x512, .i32⟩
  | .hbm, ⟨23, _⟩ => ⟨S1024x512, .i32⟩
  | .hbm, ⟨24, _⟩ => ⟨S1024x512, .i32⟩
  | .hbm, ⟨25, _⟩ => ⟨S1024x512, .i32⟩
  | .hbm, ⟨26, _⟩ => ⟨S1024x512x1, .i32⟩
  | .hbm, ⟨27, _⟩ => ⟨S1024x512x1, .i32⟩
  | .hbm, ⟨28, _⟩ => ⟨S1024x512x2, .i32⟩
  | .hbm, ⟨29, _⟩ => ⟨S1024x32000, .f32⟩
  | .hbm, ⟨30, _⟩ => ⟨S1024x32000, .f32⟩
  | .hbm, ⟨31, _⟩ => ⟨S1024x1x32000, .f32⟩
  | .local _ .vmem, ⟨0, _⟩ => ⟨S256x1280, .f32⟩
  | .local _ .vmem, ⟨1, _⟩ => ⟨S256x1280, .f32⟩
  | .local _ .vmem, ⟨2, _⟩ => ⟨S1x1280, .f32⟩
  | .local _ .vmem, ⟨3, _⟩ => ⟨S1x1280, .f32⟩
  | .local _ .vmem, ⟨4, _⟩ => ⟨S1x1280, .f32⟩
  | .local _ .vmem, ⟨5, _⟩ => ⟨S1x1280, .f32⟩
  | .local _ .vmem, ⟨6, _⟩ => ⟨S256x1280, .f32⟩
  | .local _ .vmem, ⟨7, _⟩ => ⟨S256x1280, .f32⟩
  | _, _ => ⟨S1024x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S1024x512x1_S1024x512 : S1024x512x1.ShapeCasts S1024x512
  shapeCasts_S1x1x32000_S1x32000 : S1x1x32000.ShapeCasts S1x32000
  bcast_S1024_S1024x1_0 : S1024.BroadcastsInDim S1024x1 (![0] : Fin 1 → Fin S1024x1.rank)
  bcast_S_S1024x32000 : S_.BroadcastsInDim S1024x32000 (![] : Fin 0 → Fin S1024x32000.rank)
  bcast_S_S1024x1 : S_.BroadcastsInDim S1024x1 (![] : Fin 0 → Fin S1024x1.rank)
  bcast_S_S1024x512 : S_.BroadcastsInDim S1024x512 (![] : Fin 0 → Fin S1024x512.rank)
  bcast_S1024x1_S1024x512_0_1 : S1024x1.BroadcastsInDim S1024x512 (![0, 1] : Fin 2 → Fin S1024x512.rank)
  bcast_S1024x512_S1024x512x1_0_1 : S1024x512.BroadcastsInDim S1024x512x1 (![0, 1] : Fin 2 → Fin S1024x512x1.rank)
  concatenates_S1024x512x1_S1024x512x1_S1024x512x2_d2 : Shape.Concatenates [S1024x512x1, S1024x512x1] S1024x512x2 2
  inb_S256x1280_S256x1280_0_0 : ∀ a, (![0, 0] : Fin 2 → Nat) a + S256x1280.size a ≤ S256x1280.size a
  h_S256x1280 : 0 < S256x1280.numel
  shapeCasts_S256x1280_S256x1280 : S256x1280.ShapeCasts S256x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S256x1280 : S1x1280.Broadcasts S256x1280
  shapeCasts_S1024x32000_S1024x1x32000 : S1024x32000.ShapeCasts S1024x1x32000
  scatter_S1024x32000_S1024x512x2_S1024x512_n_01_01_2_wf : ScatterDims.WF S1024x32000 S1024x512x2 S1024x512 [] [0, 1] [0, 1] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1280.size a ≤ S1024x32000.size a
  hwx0_0 : ∀ i : grid0.Coords, EltTy.bits .f32 = 32 ∨ (Rect.block (s := S1024x32000) S256x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1280.size a ≤ S1x32000.size a
  hwx0_1 : ∀ i : grid0.Coords, EltTy.bits .f32 = 32 ∨ (Rect.block (s := S1x32000) S1x1280.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1280.size a ≤ S1x32000.size a
  hwx0_2 : ∀ i : grid0.Coords, EltTy.bits .f32 = 32 ∨ (Rect.block (s := S1x32000) S1x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1280.size a ≤ S1024x32000.size a
  hwx0_3 : ∀ i : grid0.Coords, EltTy.bits .f32 = 32 ∨ (Rect.block (s := S1024x32000) S256x1280.size (cc0_transform_3 i) (hinb0_3 i)).WholeWords (EltTy.packing .f32)

variable [Facts₀]

def scatter_S1024x32000_S1024x512x2_S1024x512_n_01_01_2 : ScatterDims S1024x32000 S1024x512x2 S1024x512 where
  updateWindowDims := []
  insertedWindowDims := [0, 1]
  scatterDimsToOperandDims := [0, 1]
  indexVectorDim := 2
  wf := scatter_S1024x32000_S1024x512x2_S1024x512_n_01_01_2_wf

abbrev win0_0 : Pipeline.Window sig grid0 :=
  Pipeline.Window.ofSpec (Memref.whole main_v20) S256x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S256x1280.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x512 : Shape := ⟨2, ![1024, 512]⟩
abbrev S1024x512x1 : Shape := ⟨3, ![1024, 512, 1]⟩
abbrev S1x1x32000 : Shape := ⟨3, ![1, 1, 32000]⟩
abbrev S1024 : Shape := ⟨1, ![1024]⟩
abbrev S1024x1 : Shape := ⟨2, ![1024, 1]⟩
abbrev S_ : Shape := ⟨0, ![]⟩
abbrev S1024x32000 : Shape := ⟨2, ![1024, 32000]⟩
abbrev S1024x512x2 : Shape := ⟨3, ![1024, 512, 2]⟩
abbrev S1024x1x32000 : Shape := ⟨3, ![1024, 1, 32000]⟩

abbrev nBuf : Space → Nat
  | .hbm => 43
  | .vmem => 0
  | .smem => 0
  | _ => 0

abbrev bufTy : (tb : Table) → Fin (tcTables nBuf tb) → BufTy
  | .hbm, ⟨0, _⟩ => ⟨S1024x512, .i32⟩
  | .hbm, ⟨1, _⟩ => ⟨S1024x512x1, .f32⟩
  | .hbm, ⟨2, _⟩ => ⟨S1x1x32000, .f32⟩
  | .hbm, ⟨3, _⟩ => ⟨S1x1x32000, .f32⟩
  | .hbm, ⟨4, _⟩ => ⟨S1024, .i32⟩
  | .hbm, ⟨5, _⟩ => ⟨S1024x1, .i32⟩
  | .hbm, ⟨6, _⟩ => ⟨S_, .f32⟩
  | .hbm, ⟨7, _⟩ => ⟨S1024x32000, .f32⟩
  | .hbm, ⟨8, _⟩ => ⟨S1024x512, .f32⟩
  | .hbm, ⟨9, _⟩ => ⟨S_, .i32⟩
  | .hbm, ⟨10, _⟩ => ⟨S1024x1, .i32⟩
  | .hbm, ⟨11, _⟩ => ⟨S1024x1, .i1⟩
  | .hbm, ⟨12, _⟩ => ⟨S_, .i32⟩
  | .hbm, ⟨13, _⟩ => ⟨S1024x1, .i32⟩
  | .hbm, ⟨14, _⟩ => ⟨S1024x1, .i32⟩
  | .hbm, ⟨15, _⟩ => ⟨S1024x1, .i32⟩
  | .hbm, ⟨16, _⟩ => ⟨S_, .i32⟩
  | .hbm, ⟨17, _⟩ => ⟨S1024x512, .i32⟩
  | .hbm, ⟨18, _⟩ => ⟨S1024x512, .i1⟩
  | .hbm, ⟨19, _⟩ => ⟨S_, .i32⟩
  | .hbm, ⟨20, _⟩ => ⟨S1024x512, .i32⟩
  | .hbm, ⟨21, _⟩ => ⟨S1024x512, .i32⟩
  | .hbm, ⟨22, _⟩ => ⟨S1024x512, .i32⟩
  | .hbm, ⟨23, _⟩ => ⟨S1024x512, .i32⟩
  | .hbm, ⟨24, _⟩ => ⟨S1024x512x1, .i32⟩
  | .hbm, ⟨25, _⟩ => ⟨S1024x512x1, .i32⟩
  | .hbm, ⟨26, _⟩ => ⟨S1024x512x2, .i32⟩
  | .hbm, ⟨27, _⟩ => ⟨S1024x32000, .f32⟩
  | .hbm, ⟨28, _⟩ => ⟨S_, .f32⟩
  | .hbm, ⟨29, _⟩ => ⟨S1024x32000, .f32⟩
  | .hbm, ⟨30, _⟩ => ⟨S1024x32000, .i1⟩
  | .hbm, ⟨31, _⟩ => ⟨S_, .f32⟩
  | .hbm, ⟨32, _⟩ => ⟨S_, .f32⟩
  | .hbm, ⟨33, _⟩ => ⟨S1024x32000, .f32⟩
  | .hbm, ⟨34, _⟩ => ⟨S1024x32000, .f32⟩
  | .hbm, ⟨35, _⟩ => ⟨S1024x32000, .f32⟩
  | .hbm, ⟨36, _⟩ => ⟨S1024x1x32000, .f32⟩
  | .hbm, ⟨37, _⟩ => ⟨S1x1x32000, .f32⟩
  | .hbm, ⟨38, _⟩ => ⟨S1024x1x32000, .f32⟩
  | .hbm, ⟨39, _⟩ => ⟨S1024x1x32000, .f32⟩
  | .hbm, ⟨40, _⟩ => ⟨S1024x1x32000, .f32⟩
  | .hbm, ⟨41, _⟩ => ⟨S1024x1x32000, .f32⟩
  | .hbm, ⟨42, _⟩ => ⟨S1024x1x32000, .f32⟩
  | _, _ => ⟨S1024x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_cst_5 : Ref sig .tc := ⟨.hbm, 32, rfl⟩
abbrev main_call0_v0 : Ref sig .tc := ⟨.hbm, 33, rfl⟩
abbrev main_call0_v1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S_S1024x32000 : S_.BroadcastsInDim S1024x32000 (![] : Fin 0 → Fin S1024x32000.rank)
  shapeCasts_S1024x512x1_S1024x512 : S1024x512x1.ShapeCasts S1024x512
  bcast_S_S1024x1 : S_.BroadcastsInDim S1024x1 (![] : Fin 0 → Fin S1024x1.rank)
  bcast_S_S1024x512 : S_.BroadcastsInDim S1024x512 (![] : Fin 0 → Fin S1024x512.rank)
  bcast_S1024x1_S1024x512_0_1 : S1024x1.BroadcastsInDim S1024x512 (![0, 1] : Fin 2 → Fin S1024x512.rank)
  bcast_S1024x512_S1024x512x1_0_1 : S1024x512.BroadcastsInDim S1024x512x1 (![0, 1] : Fin 2 → Fin S1024x512x1.rank)
  concatenates_S1024x512x1_S1024x512x1_S1024x512x2_d2 : Shape.Concatenates [S1024x512x1, S1024x512x1] S1024x512x2 2
  bcast_S1024x32000_S1024x1x32000_0_2 : S1024x32000.BroadcastsInDim S1024x1x32000 (![0, 2] : Fin 2 → Fin S1024x1x32000.rank)
  bcast_S1x1x32000_S1024x1x32000_0_1_2 : S1x1x32000.BroadcastsInDim S1024x1x32000 (![0, 1, 2] : Fin 3 → Fin S1024x1x32000.rank)
  scatter_S1024x32000_S1024x512x2_S1024x512_n_01_01_2_wf : ScatterDims.WF S1024x32000 S1024x512x2 S1024x512 [] [0, 1] [0, 1] 2

variable [Facts₀]

def scatter_S1024x32000_S1024x512x2_S1024x512_n_01_01_2 : ScatterDims S1024x32000 S1024x512x2 S1024x512 where
  updateWindowDims := []
  insertedWindowDims := [0, 1]
  scatterDimsToOperandDims := [0, 1]
  indexVectorDim := 2
  wf := scatter_S1024x32000_S1024x512x2_S1024x512_n_01_01_2_wf

class Facts : Prop extends Facts₀ where

variable [Facts]
-- ==== Proof.Presence.lean ====
/-
  The function both programs compute, stated once over literal shapes and any float instance.

  With counts[b, v] the mask weight scattered onto vocabulary entry v of row b, the result is
      result[b, 0, v] = exp(logscale[0, 0, v]) * presence(counts[b, v]) + shift[0, 0, v],
  where presence(a) is one when a > 0 and zero otherwise. The kernel computes it on the [1024, 32000] array from
  the tables re-laid as one row (`outArr`) and re-lays the outcome with a unit middle axis; `relaid` says that this
  is `result`, entry by entry: a re-laying keeps the row-major position, so entry (b, 0, v) comes from entry (b, v),
  and entry (0, v) of a re-laid table from entry (0, 0, v).
-/
import Idealize.ShloMosaic.PureOps.Ideal
import Idealize.ShloMosaic.Lib.ValueIdx
import Idealize.ShloMosaic.Lib.Pipeline.Value

noncomputable section

open Idealize.ShloMosaic Idealize.ShloMosaic.ValueIdx

namespace Cert.Presence

variable {F : FTy → Type} [FloatOps F]

/-- The indicator of a positive count: one where the count exceeds zero, zero elsewhere. -/
def presence (a : F .f32) : F .f32 :=
  Scalar.select (FloatOps.cmpf .ogt a (FloatOps.ofBits .f32 0x00000000#32)) (FloatOps.ofBits .f32 0x3F800000#32) (FloatOps.ofBits .f32 0x00000000#32)

/-- The column's entry of a one-row table, seen from an index of a block or of the whole array. -/
abbrev rowOf {n0 n1 : Nat} (j : (⟨2, ![n0, n1]⟩ : Shape).Idx) : (⟨2, ![1, n1]⟩ : Shape).Idx := ix2 (0 : Fin 1) (j 1)

/-- One entry of the two-axis result from the entry of the counts at the same place and the column's entries of the
    one-row tables. -/
def outArr {n0 n1 : Nat} (cnt : (⟨2, ![n0, n1]⟩ : Shape).Idx → F .f32) (ls sh : (⟨2, ![1, n1]⟩ : Shape).Idx → F .f32) :
    (⟨2, ![n0, n1]⟩ : Shape).Idx → F .f32 :=
  fun i => FloatOps.addf (FloatOps.mulf (FloatOps.exp (ls (rowOf i))) (presence (cnt i))) (sh (rowOf i))

/-- The result with its unit middle axis, from the counts and the tables as the programs receive them. -/
def result (cnt : (⟨2, ![1024, 32000]⟩ : Shape).Idx → F .f32) (ls sh : (⟨3, ![1, 1, 32000]⟩ : Shape).Idx → F .f32) :
    (⟨3, ![1024, 1, 32000]⟩ : Shape).Idx → F .f32 :=
  fun i => FloatOps.addf (FloatOps.mulf (FloatOps.exp (ls (ix3 (0 : Fin 1) (0 : Fin 1) (i 2)))) (presence (cnt (ix2 (i 0) (i 2)))))
    (sh (ix3 (0 : Fin 1) (0 : Fin 1) (i 2)))

/-- A table re-laid from [1, 1, 32000] to [1, 32000] keeps its entries in order. -/
theorem table_apply (x : (⟨3, ![1, 1, 32000]⟩ : Shape).Idx → F .f32)
    (h : (⟨3, ![1, 1, 32000]⟩ : Shape).ShapeCasts ⟨2, ![1, 32000]⟩) (v : Fin 32000) :
    shapeCast ⟨2, ![1, 32000]⟩ x h (ix2 (0 : Fin 1) v) = x (ix3 (0 : Fin 1) (0 : Fin 1) v) :=
  shapeCast_apply x h _ _ (by
    rw [Shape.rowMajor_val_three, Shape.rowMajor_val_two]
    show ((0 : Nat) * 1 + 0) * 32000 + v.val = 0 * 32000 + v.val
    omega)

/-- The two-axis result over re-laid tables, re-laid with a unit middle axis, is `result`. -/
theorem relaid (cnt : (⟨2, ![1024, 32000]⟩ : Shape).Idx → F .f32) (ls sh : (⟨3, ![1, 1, 32000]⟩ : Shape).Idx → F .f32)
    (h1 : (⟨3, ![1, 1, 32000]⟩ : Shape).ShapeCasts ⟨2, ![1, 32000]⟩)
    (h2 : (⟨2, ![1024, 32000]⟩ : Shape).ShapeCasts ⟨3, ![1024, 1, 32000]⟩) :
    shapeCast ⟨3, ![1024, 1, 32000]⟩ (outArr cnt (shapeCast ⟨2, ![1, 32000]⟩ ls h1) (shapeCast ⟨2, ![1, 32000]⟩ sh h1)) h2
      = result cnt ls sh := by
  funext i
  obtain ⟨b, z, v, rfl⟩ : ∃ (b : Fin 1024) (z : Fin 1) (v : Fin 32000), i = ix3 b z v := ⟨i 0, i 1, i 2, eq_ix3 i⟩
  refine (shapeCast_apply _ h2 (ix3 b z v) (ix2 b v) ?_).trans ?_
  · rw [Shape.rowMajor_val_two, Shape.rowMajor_val_three]
    show b.val * 32000 + v.val = (b.val * 1 + z.val) * 32000 + v.val
    have hz : z.val < 1 := z.isLt
    omega
  · show FloatOps.addf (FloatOps.mulf (FloatOps.exp (shapeCast ⟨2, ![1, 32000]⟩ ls h1 (ix2 (0 : Fin 1) v))) (presence (cnt (ix2 b v))))
        (shapeCast ⟨2, ![1, 32000]⟩ sh h1 (ix2 (0 : Fin 1) v)) = _
    rw [table_apply, table_apply]
    rfl

end Cert.Presence

end
-- ==== Proof.KernelValue.lean ====
/-
  What the idealized kernel's run leaves in its result, read off the generated frame run.

  Before the region the host scatters the mask weights into per-row vocabulary counts; the region's grid is
  4 x 25 points, point (i, j) reading block (i, j) of the counts (256 rows, 1280 columns) and block (0, j) of the
  two one-row tables (log-scale, shift), and writing block (i, j) of the output:
      out[b, v] = exp(logscale[0, v]) * (1 if counts[b, v] > 0 else 0) + shift[0, v].
  Every output entry depends on the one entry of the counts with the same coordinates and on the column's entry of
  each table, so all blocks are restrictions of one whole-array function (`outArr`); the blocks tile the array, so
  the array after the region is that function, and the one host line after the region re-lays it as [1024, 1, 32000].
-/
import proofs.«414632_j47467978556092_3_alg».proof.Proof.Gen.KernelIdeal.Frame
import proofs.«414632_j47467978556092_3_alg».proof.Proof.Presence
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Hand

open Cert.KernelIdeal Cert.KernelIdeal.Gen Cert.Presence

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The body's one payload is `outArr` of its three loaded blocks. -/
theorem pay_eq (x0 : Vec F S256x1280 .f32) (x1 x2 : Vec F S1x1280 .f32) : k0_pay1 x0 x1 x2 = outArr x0 x1 x2 := by
  funext j
  obtain ⟨p, q, rfl⟩ : ∃ (p : Fin 256) (q : Fin 1280), j = ix2 p q := ⟨j 0, j 1, eq_ix2 j⟩
  unfold k0_pay1
  simp only [shapeCast_self]
  show FloatOps.addf (FloatOps.mulf (broadcastTo S256x1280 (exp x1) broadcasts_S1x1280_S256x1280 (ix2 p q)) (presence (x0 (ix2 p q))))
      (broadcastTo S256x1280 x2 broadcasts_S1x1280_S256x1280 (ix2 p q)) = _
  rw [broadcastTo_1b_ab_apply, broadcastTo_1b_ab_apply]
  rfl

/-! ## The index maps, decided over the 100 grid points -/

/-- The counts' window moves with the output's; the two tables' windows stay on row block 0 and move with the output's
    column block; the output's block indices stay inside the 4 x 25 box. -/
theorem idx_facts : ∀ t : Fin cfg0.N, win0_0.index t (0 : Fin 2) = win0_3.index t (0 : Fin 2)
    ∧ win0_0.index t (1 : Fin 2) = win0_3.index t (1 : Fin 2)
    ∧ win0_1.index t (0 : Fin 2) = 0
    ∧ win0_1.index t (1 : Fin 2) = win0_3.index t (1 : Fin 2)
    ∧ win0_2.index t (0 : Fin 2) = 0
    ∧ win0_2.index t (1 : Fin 2) = win0_3.index t (1 : Fin 2)
    ∧ win0_3.index t (0 : Fin 2) ≤ 3
    ∧ win0_3.index t (1 : Fin 2) ≤ 24 :=
  (by decide +kernel : ∀ t : Fin grid0.N, _)

/-- Every block of the 4 x 25 box is some point's. -/
theorem idx_onto : ∀ (q0 : Fin 4) (q1 : Fin 25), ∃ t : Fin cfg0.N, win0_3.index t = ![q0.val, q1.val] :=
  (by decide +kernel : ∀ (q0 : Fin 4) (q1 : Fin 25), ∃ t : Fin grid0.N, win0_3.index t = ![q0.val, q1.val])

/-! ## What a point writes back -/

/-- The whole-array function the blocks restrict: `outArr` of the counts and the two re-laid tables as the region finds them. -/
abbrev G (c : Dev nD) : Buf (Elt F) ((c : Thread nD τ).loc main_v21) :=
  outArr (V m c main_v20) (V m c main_v1) (V m c main_v2)

/-- Point `t` writes back block `t` of `G`. -/
theorem flushed_eq (c : Dev nD) (t : Fin cfg0.N) :
    (dats m 0 c).flushed 3 t = ((cfg0.win 3).blk t).view.read (Elt F) (G m c) := by
  show (cfg0.win 3).cut (grid0.coords t) ((dats m 0 c).after 3 t) = _
  rw [after0_3]
  unfold out0_3
  rw [View.canon_unit_zero hz]
  simp only [View.ld_unit_zero (S := S256x1280) hz, View.ld_unit_zero (S := S1x1280) hz]
  rw [pay_eq]
  obtain ⟨e0, e1, e2, e3, e4, e5, e6, e7⟩ := idx_facts t
  funext j
  have h0 : ((cfg0.win 0).blk t).view.emb j = ((cfg0.win 3).blk t).view.emb j := by
    funext a; apply Fin.ext
    match a with
    | ⟨0, _⟩ => show win0_0.index t (0 : Fin 2) * 256 + 1 * (j 0).val = win0_3.index t (0 : Fin 2) * 256 + 1 * (j 0).val; omega
    | ⟨1, _⟩ => show win0_0.index t (1 : Fin 2) * 1280 + 1 * (j 1).val = win0_3.index t (1 : Fin 2) * 1280 + 1 * (j 1).val; omega
  have h1 : ((cfg0.win 1).blk t).view.emb (rowOf (n0 := 256) (n1 := 1280) j) = rowOf (n0 := 1024) (n1 := 32000) (((cfg0.win 3).blk t).view.emb j) := by
    funext a; apply Fin.ext
    match a with
    | ⟨0, _⟩ => show win0_1.index t (0 : Fin 2) * 1 + 1 * 0 = 0; omega
    | ⟨1, _⟩ => show win0_1.index t (1 : Fin 2) * 1280 + 1 * (j 1).val = win0_3.index t (1 : Fin 2) * 1280 + 1 * (j 1).val; omega
  have h2 : ((cfg0.win 2).blk t).view.emb (rowOf (n0 := 256) (n1 := 1280) j) = rowOf (n0 := 1024) (n1 := 32000) (((cfg0.win 3).blk t).view.emb j) := by
    funext a; apply Fin.ext
    match a with
    | ⟨0, _⟩ => show win0_2.index t (0 : Fin 2) * 1 + 1 * 0 = 0; omega
    | ⟨1, _⟩ => show win0_2.index t (1 : Fin 2) * 1280 + 1 * (j 1).val = win0_3.index t (1 : Fin 2) * 1280 + 1 * (j 1).val; omega
  show FloatOps.addf (FloatOps.mulf (FloatOps.exp (V m c main_v1 (((cfg0.win 1).blk t).view.emb (rowOf (n0 := 256) (n1 := 1280) j))))
        (presence (V m c main_v20 (((cfg0.win 0).blk t).view.emb j))))
      (V m c main_v2 (((cfg0.win 2).blk t).view.emb (rowOf (n0 := 256) (n1 := 1280) j)))
    = FloatOps.addf (FloatOps.mulf (FloatOps.exp (V m c main_v1 (rowOf (n0 := 1024) (n1 := 32000) (((cfg0.win 3).blk t).view.emb j))))
        (presence (V m c main_v20 (((cfg0.win 3).blk t).view.emb j))))
      (V m c main_v2 (rowOf (n0 := 1024) (n1 := 32000) (((cfg0.win 3).blk t).view.emb j)))
  rw [h0, h1, h2]

/-! ## The blocks tile the output array -/

/-- An index of the output array is in point `t`'s block iff each coordinate is in the block's range on its axis. -/
theorem mem_blk (t : Fin cfg0.N) (i : S1024x32000.Idx) :
    i ∈ ((cfg0.win 3).blk t).view.set ↔ ∀ a : Fin 2, win0_3.index t a * S256x1280.size a ≤ (i a).val ∧ (i a).val < win0_3.index t a * S256x1280.size a + S256x1280.size a := by
  show i ∈ ((View.whole main_v21).slice (win0_3.rect t)).set ↔ _
  rw [View.set_slice_whole, Rect.mem_set_unit]
  exact Iff.rfl

/-- Row `b`, column `v` is in the block of the point whose block index is (b / 256, v / 1280). -/
theorem covered (i : S1024x32000.Idx) :
    ∃ t : Fin cfg0.N, (cfg0.win 3).flush t = true ∧ i ∈ ((cfg0.win 3).blk t).view.set := by
  have hi0 : (i 0).val < 1024 := (i 0).isLt
  have hi1 : (i 1).val < 32000 := (i 1).isLt
  obtain ⟨t, ht⟩ := idx_onto ⟨(i 0).val / 256, by omega⟩ ⟨(i 1).val / 1280, by omega⟩
  have q0 : win0_3.index t (0 : Fin 2) = (i 0).val / 256 := congrFun ht 0
  have q1 : win0_3.index t (1 : Fin 2) = (i 1).val / 1280 := congrFun ht 1
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1280 ≤ (i 1).val ∧ (i 1).val < win0_3.index t (1 : Fin 2) * 1280 + 1280; omega

/-- So the output array ends holding `G`. -/
theorem final (c : Dev nD) : (dats m 0 c).arrAt 3 cfg0.N = G m c :=
  (dats m 0 c).arrAt_eq_of_cover 3 (G m c) (fun t _ => flushed_eq m c t) covered

/-! ## The host line after the region -/

/-- The program's result is the output array re-laid as [1024, 1, 32000]. -/
theorem tail_eq (c : Dev nD) :
    Pipeline.afterTail₀ cfgs (dats m) 0 (V0 m) [hostOps1] c main_v22
      = shapeCast S1024x1x32000 (G m c) shapeCasts_S1024x32000_S1024x1x32000 := by
  unfold Pipeline.afterTail₀
  show StableHlo.after hostOps1 _ (Proc.devRef .tc main_v22) = _
  after_results
  have e : Pipeline.withArrays (cfgs 0).spec c (V0 m c) (fun w => (dats m 0 c).arrAt w (cfgs 0).N) (Proc.devRef .tc main_v21) = G m c :=
    (Pipeline.withArrays_arr spec0 launch0.win.arr_inj c _ _ 3).trans (final m c)
  exact congrArg (fun A : Buf (Elt F) ((c : Thread nD τ).loc main_v21) => shapeCast S1024x1x32000 A shapeCasts_S1024x32000_S1024x1x32000) e

/-! ## The tables as the region finds them -/

/-- The host re-lays the log-scale table as one row before the region. -/
theorem V_logscale (c : Dev nD) :
    V m c main_v1 = shapeCast S1x32000 (m ((c : Thread nD τ).loc main_arg2)) shapeCasts_S1x1x32000_S1x32000 := by
  show StableHlo.after hostOps0 (fun b => m (c, b)) (Proc.devRef .tc main_v1) = _
  after_results; rfl

/-- The host re-lays the shift table as one row before the region. -/
theorem V_shift (c : Dev nD) :
    V m c main_v2 = shapeCast S1x32000 (m ((c : Thread nD τ).loc main_arg3)) shapeCasts_S1x1x32000_S1x32000 := by
  show StableHlo.after hostOps0 (fun b => m (c, b)) (Proc.devRef .tc main_v2) = _
  after_results; rfl

/-- The program's result, entry by entry, from the counts the region finds and the two tables as launched. -/
theorem result_eq (c : Dev nD) :
    shapeCast S1024x1x32000 (G m c) shapeCasts_S1024x32000_S1024x1x32000
      = result (V m c main_v20) (m ((c : Thread nD τ).loc main_arg2)) (m ((c : Thread nD τ).loc main_arg3)) := by
  unfold G
  rw [V_logscale, V_shift]
  exact relaid _ _ _ _ _

/-! ## The run, read -/

/-- Every weakly fair execution of the idealized kernel's @main ends with the result at the re-laid `G` and the four
    arguments as launched. -/
theorem run : θ_run defs (onTc (τ := τ) (main (F := F))) ⟨m, fun _ => 0, ρ⟩ fun r => ∀ c : Dev nD,
      r.2.mem ((c : Thread nD τ).loc main_v22) = shapeCast S1024x1x32000 (G m c) shapeCasts_S1024x32000_S1024x1x32000
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v22 (Pipeline.mem_restRefs_of main_v22 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Hand

end
-- ==== Proof.RefValue.lean ====
/-
  The reference's result, entry by entry: it scatters the mask weights into counts, marks the positive counts,
  gives the marks a unit middle axis, and multiplies by the exponential of the log-scale table and adds the shift
  table, both broadcast over the rows. Entry (b, 0, v) therefore reads the count at (b, v) and the tables at
  (0, 0, v): at the ideal instance, where the host's exponential is the exponential, this is `result` of the
  reference's own counts.
-/
import proofs.«414632_j47467978556092_3_alg».proof.Proof.Gen.ReferenceIdeal.Read
import proofs.«414632_j47467978556092_3_alg».proof.Proof.Presence
import Idealize.ShloMosaic.Lib.ValueIdx

noncomputable section

open Idealize.ShloMosaic Idealize.ShloMosaic.TcCoe Idealize.SL.Sem
open Idealize.ShloMosaic.ValueIdx

namespace Cert.ReferenceIdeal.Hand

open Cert.ReferenceIdeal Cert.ReferenceIdeal.Gen Cert.ReferenceIdeal.Read Cert.Presence

/-- The last stage of the reference is `result` of the counts it scattered and of the two tables. -/
theorem ref_eq (x0 : (⟨S1024x512, .i32⟩ : BufTy).Contents (Elt Ideal)) (x1 : (⟨S1024x512x1, .f32⟩ : BufTy).Contents (Elt Ideal))
    (x2 x3 : (⟨S1x1x32000, .f32⟩ : BufTy).Contents (Elt Ideal)) :
    (val_main_v28 (F := Ideal) x0 x1 x2 x3 : (⟨3, ![1024, 1, 32000]⟩ : Shape).Idx → Ideal .f32)
      = result (F := Ideal) (val_main_v18 (F := Ideal) x0 x1) x2 x3 := by
  funext i
  obtain ⟨b, z, v, rfl⟩ : ∃ (b : Fin 1024) (z : Fin 1) (v : Fin 32000), i = ix3 b z v := ⟨i 0, i 1, i 2, eq_ix3 i⟩
  have e22 : idx_main_v22 (ix3 b z v) = ix2 b v := funext fun a => by match a with | ⟨0, _⟩ => rfl | ⟨1, _⟩ => rfl
  have e25 : idx_main_v25 (ix3 b z v) = ix3 (0 : Fin 1) (0 : Fin 1) v :=
    funext fun a => by match a with | ⟨0, _⟩ => rfl | ⟨1, _⟩ => rfl | ⟨2, _⟩ => rfl
  have e27 : idx_main_v27 (ix3 b z v) = ix3 (0 : Fin 1) (0 : Fin 1) v :=
    funext fun a => by match a with | ⟨0, _⟩ => rfl | ⟨1, _⟩ => rfl | ⟨2, _⟩ => rfl
  rw [val_main_v28_apply, val_main_v26_apply, val_main_v27_apply, val_main_v25_apply, val_main_v23_apply,
    val_main_v24_apply, val_main_v22_apply, val_main_v21_apply, val_main_v20_apply, val_main_v19_apply,
    val_main_cst_3_apply, val_main_call0_v0_apply, val_main_cst_4_apply, val_main_call0_v1_apply, val_main_cst_5_apply,
    e22, e25, e27]
  rfl

end Cert.ReferenceIdeal.Hand

end
-- ==== Proof.Bridge.lean ====
/-
  The counts are the same on both sides: before its region the kernel's @main applies to the token ids and the mask
  exactly the host operations the reference applies (row numbers and token ids made non-negative, paired into
  two-coordinate positions, the mask weights scattered-and-added onto zeros), so the array the region finds is the
  reference's scatter stage of the same two arguments.
-/
import proofs.«414632_j47467978556092_3_alg».proof.Proof.KernelValue
import proofs.«414632_j47467978556092_3_alg».proof.Proof.RefValue

noncomputable section

open Idealize.ShloMosaic Idealize.ShloMosaic.TcCoe Idealize.SL.Sem

namespace Cert.Bridge

variable {F : FTy → Type} [FloatOps F]

set_option maxHeartbeats 2000000 in
/-- The counts the kernel's region finds are the reference's scatter stage of the kernel's first two arguments. -/
theorem counts_eq (m : (ℓ : Loc Cert.KernelIdeal.nD Cert.KernelIdeal.τ Cert.KernelIdeal.sig) → Buf (Elt F) ℓ) (c : Dev Cert.KernelIdeal.nD) :
    Cert.KernelIdeal.Gen.V m c Cert.KernelIdeal.main_v20
      = Cert.ReferenceIdeal.Read.val_main_v18 (F := F)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  show StableHlo.after Cert.KernelIdeal.Gen.hostOps0 (fun b => m (c, b)) (Proc.devRef .tc Cert.KernelIdeal.main_v20) = _
  after_results_simp <;> rfl

end Cert.Bridge

end
-- ==== Proof.lean ====
/-
  The five claims. Both idealized programs compute, on the extended reals,
      result[b, 0, v] = exp(logscale[0, 0, v]) * (1 if counts[b, v] > 0 else 0) + shift[0, 0, v],
  with counts the mask weights scattered-and-added onto the vocabulary entries of each row. The kernel's @main makes the
  counts with the very host operations the reference uses and evaluates the rest blockwise in its region; the reference
  evaluates it with whole-array host operations. The operations agree one by one and in the same order (product first,
  then the sum), so no law of the extended reals beyond reading each side entry by entry is needed, and the
  precondition is not used. The word-level kernel's and the idealized kernel's frames are the generated ones; the
  reference's frame is its generated run with the result dropped; no rewrite was applied when the kernel was idealized.
-/
import proofs.«414632_j47467978556092_3_alg».proof.Defs
import proofs.«414632_j47467978556092_3_alg».proof.Proof.Gen.Kernel
import proofs.«414632_j47467978556092_3_alg».proof.Proof.Gen.Kernel.Skeleton
import proofs.«414632_j47467978556092_3_alg».proof.Proof.Gen.Kernel.Launch
import proofs.«414632_j47467978556092_3_alg».proof.Proof.Gen.Kernel.Points
import proofs.«414632_j47467978556092_3_alg».proof.Proof.Gen.Kernel.Frame
import proofs.«414632_j47467978556092_3_alg».proof.Proof.Gen.KernelIdeal
import proofs.«414632_j47467978556092_3_alg».proof.Proof.Gen.KernelIdeal.Skeleton
import proofs.«414632_j47467978556092_3_alg».proof.Proof.Gen.KernelIdeal.Launch
import proofs.«414632_j47467978556092_3_alg».proof.Proof.Gen.KernelIdeal.Points
import proofs.«414632_j47467978556092_3_alg».proof.Proof.Gen.KernelIdeal.Frame
import proofs.«414632_j47467978556092_3_alg».proof.Proof.Gen.ReferenceIdeal
import proofs.«414632_j47467978556092_3_alg».proof.Proof.Gen.Pre_finite_inputs
import proofs.«414632_j47467978556092_3_alg».proof.Proof.Gen.ReferenceIdeal.Run
import proofs.«414632_j47467978556092_3_alg».proof.Proof.Gen.ReferenceIdeal.Read
import proofs.«414632_j47467978556092_3_alg».proof.Proof.Presence
import proofs.«414632_j47467978556092_3_alg».proof.Proof.KernelValue
import proofs.«414632_j47467978556092_3_alg».proof.Proof.RefValue
import proofs.«414632_j47467978556092_3_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the ideal instance: nothing was rewritten. -/
theorem preserves : Cert.preserves_Kernel_KernelIdeal := trivial

/-- Both runs end with the result at `result` of the same counts and tables: the kernel's by its frame run read block by
    block, the reference's by its run read stage by stage, the counts identified as one scatter of the agreeing arguments. -/
theorem algebraic : Cert.algebraic_KernelIdeal_ReferenceIdeal := by
  intro m ρ m' ρ' _ hagree
  refine ⟨fun c => Cert.Presence.result (F := Ideal) (Cert.KernelIdeal.Gen.V m c Cert.KernelIdeal.main_v20)
      (m ((c : Thread Cert.KernelIdeal.nD Cert.KernelIdeal.τ).loc Cert.KernelIdeal.main_arg2))
      (m ((c : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.result_eq m c), (h c).2⟩)
      (Cert.KernelIdeal.Hand.run (F := Ideal) m ρ)
  · refine (θ_run Cert.ReferenceIdeal.defs _ _).mono
      (fun _ h c => ⟨(h c).1.trans ((Cert.ReferenceIdeal.Read.val_main_v28_eq _ _ _ _).trans ?_), (h c).2⟩)
      (Cert.ReferenceIdeal.Value.run (F := Ideal) m' ρ')
    rw [Cert.ReferenceIdeal.Hand.ref_eq, (hagree c).1, (hagree c).2.1, (hagree c).2.2.1, (hagree c).2.2.2]
    exact congrArg (fun cnt => Cert.Presence.result (F := Ideal) cnt _ _) (Cert.Bridge.counts_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
